-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S4x2048x4096 .f32) (main_arg1 : FVec F S11008x4096 .f32) (main_arg2 : FVec F S11008x4096 .f32) (main_arg3 : FVec F S4096x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S4096x11008 : Shape := ⟨2, ![4096, 11008]⟩
abbrev S8192x4096 : Shape := ⟨2, ![8192, 4096]⟩
abbrev S256x4096 : Shape := ⟨2, ![256, 4096]⟩
abbrev S4096x256 : Shape := ⟨2, ![4096, 256]⟩
abbrev S256x256 : Shape := ⟨2, ![256, 256]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S8192x4096, .f32⟩
  | .hbm, ⟨5, _⟩ => ⟨S8192x4096, .bf16⟩
  | .hbm, ⟨6, _⟩ => ⟨S11008x4096, .bf16⟩
  | .hbm, ⟨7, _⟩ => ⟨S11008x4096, .bf16⟩
  | .hbm, ⟨8, _⟩ => ⟨S4096x11008, .bf16⟩
  | .hbm, ⟨9, _⟩ => ⟨S8192x4096, .f32⟩
  | .hbm, ⟨10, _⟩ => ⟨S4x2048x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 43], ![false, false]⟩

def k0_cond2 (i : grid0.Coords) : BitVec 1 :=
  let arg1 : BitVec 32 := BitVec.ofNat 32 (i 1).val
  let c42_i32 : BitVec 32 := 42#32
  let v23 : BitVec 1 := Scalar.cmpi .eq arg1 c42_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x2048x4096_S8192x4096 : S4x2048x4096.ShapeCasts S8192x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S8192x4096_S4x2048x4096 : S8192x4096.ShapeCasts S4x2048x4096
  dot_S256x4096_S256x4096_S256x256_1_1_0_0_n_n_wf : DotDims.WF S256x4096 S256x4096 S256x256 [1] [1] [0] [0] [] []
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .bf16 = 32 ∨ (Rect.block (s := S8192x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x11008.size a
  hwx0_3 : ∀ i : grid0.Coords, EltTy.bits .bf16 = 32 ∨ (Rect.block (s := S4096x11008) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S4096x11008 : Shape := ⟨2, ![4096, 11008]⟩
abbrev S8192x4096 : Shape := ⟨2, ![8192, 4096]⟩
abbrev S8192x11008 : Shape := ⟨2, ![8192, 11008]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S8192x4096, .f32⟩
  | .hbm, ⟨5, _⟩ => ⟨S4096x11008, .f32⟩
  | .hbm, ⟨6, _⟩ => ⟨S8192x11008, .f32⟩
  | .hbm, ⟨7, _⟩ => ⟨S4096x11008, .f32⟩
  | .hbm, ⟨8, _⟩ => ⟨S8192x11008, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S_, .f32⟩
  | .hbm, ⟨15, _⟩ => ⟨S8192x11008, .f32⟩
  | .hbm, ⟨16, _⟩ => ⟨S8192x11008, .f32⟩
  | .hbm, ⟨17, _⟩ => ⟨S8192x11008, .f32⟩
  | .hbm, ⟨18, _⟩ => ⟨S8192x11008, .f32⟩
  | .hbm, ⟨19, _⟩ => ⟨S11008x4096, .f32⟩
  | .hbm, ⟨20, _⟩ => ⟨S8192x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]

class Facts₀ : Prop where
  shapeCasts_S4x2048x4096_S8192x4096 : S4x2048x4096.ShapeCasts S8192x4096
  transposes_S11008x4096_S4096x11008_1_0 : S11008x4096.Transposes [1, 0] S4096x11008
  bcast_S_S8192x11008 : S_.BroadcastsInDim S8192x11008 (![] : Fin 0 → Fin S8192x11008.rank)
  transposes_S4096x11008_S11008x4096_1_0 : S4096x11008.Transposes [1, 0] S11008x4096
  shapeCasts_S8192x4096_S4x2048x4096 : S8192x4096.ShapeCasts S4x2048x4096
  dot_S8192x4096_S4096x11008_S8192x11008_1_0_0_1_n_n_wf : DotDims.WF S8192x4096 S4096x11008 S8192x11008 [1] [0] [0] [1] [] []
  dot_S8192x11008_S11008x4096_S8192x4096_1_0_0_1_n_n_wf : DotDims.WF S8192x11008 S11008x4096 S8192x4096 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf
def dot_S8192x11008_S11008x4096_S8192x4096_1_0_0_1_n_n : DotDims S8192x11008 S11008x4096 S8192x4096 where
  lhsContracting := [1]
  rhsContracting := [0]
  lhsNonContracting := [0]
  rhsNonContracting := [1]
  lhsBatch := []
  rhsBatch := []
  wf := dot_S8192x11008_S11008x4096_S8192x4096_1_0_0_1_n_n_wf

class Facts : Prop extends Facts₀ where

variable [Facts]
-- ==== Proof.Pieces.lean ====
/-
  What one visit of the kernel body leaves in the running-total buffer and in the output block, as pure values.

  The body, at a grid point, optionally clears the running total (first hidden block), then loads the four input
  blocks and the running total, stores "total + this block's product" back, and (last hidden block) copies the total to
  the output block. In each of the three control cases the buffer's final contents are one whole-buffer store read
  back: in the clearing case the total that is read is the zero block just stored, otherwise it is what the previous
  visit left.
-/
import proofs.«161146_j3659312136255_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A visit that neither clears nor copies: the running total becomes the step's payload over the previous total. -/
theorem total_B (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : ¬cond0_1 i)
    (x0 : Vec F S256x4096 .bf16) (x1 : Vec F S256x4096 .bf16) (x2 : Vec F S256x4096 .bf16) (x3 : Vec F S4096x256 .bf16) (xs0 : Vec F S256x4096 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, View.ld_unit_zero (S := S256x4096) hz, View.ld_unit_zero (S := S4096x256) hz]

/-- A clearing visit: the total that the step reads is the zero block the visit has just stored. -/
theorem total_A (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : cond0_0 i) (hc1 : ¬cond0_1 i)
    (x0 : Vec F S256x4096 .bf16) (x1 : Vec F S256x4096 .bf16) (x2 : Vec F S256x4096 .bf16) (x3 : Vec F S4096x256 .bf16) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S256x4096) hz, View.readCov_unit_zero (S := S256x4096) _ hz]
  simp only [View.readAt_eq_ld, harg2.read_unread, harg3.read_unread, harg4.read_unread, harg5.read_unread, harg6.read_unread, harg7.read_unread, View.ld_unit_zero (S := S256x4096) hz, View.ld_unit_zero (S := S4096x256) hz]

/-- A copying visit (last hidden block): the running total, as in a plain visit. -/
theorem total_C (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : cond0_1 i)
    (x0 : Vec F S256x4096 .bf16) (x1 : Vec F S256x4096 .bf16) (x2 : Vec F S256x4096 .bf16) (x3 : Vec F S4096x256 .bf16) (xs0 : Vec F S256x4096 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S256x4096) hz, View.ld_unit_zero (S := S4096x256) hz]

/-- A copying visit: the output block receives the running total just stored. -/
theorem block_C (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : cond0_1 i)
    (x0 : Vec F S256x4096 .bf16) (x1 : Vec F S256x4096 .bf16) (x2 : Vec F S256x4096 .bf16) (x3 : Vec F S4096x256 .bf16) (xs0 : Vec F S256x4096 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S256x4096) _ hz]
  simp only [View.readAt_eq_ld, harg2.read_unread, harg3.read_unread, harg4.read_unread, harg5.read_unread, harg6.read_unread, harg7.read_unread, View.ld_unit_zero (S := S256x4096) hz, View.ld_unit_zero (S := S4096x256) hz]

end Cert.KernelIdeal.Pieces

end
-- ==== Proof.LibTransposedDot.lean ====
/-
  A MATRIX PRODUCT AGAINST THE ROWS OF THE RIGHT OPERAND, READ AT AN INDEX (general lemmas; they mention no program).

  Take dimension numbers of a product [M, K] × [N, K] → [M, N] that contract the left operand's axis 1 with the
  right operand's axis 1, keep the left axis 0 and the right axis 0, and have no batch axes: x · wᵀ without the
  transpose being formed. The contraction index set has one axis of extent K, so it is Fin K; the left operand's
  index at result index (i, j) and contraction position k is (i, k), the right operand's is (j, k). Hence on the
  extended reals the vector unit's accumulate-into-zero product is, at (i, j), the finite sum over k of
  l (i, k) · r (j, k).
-/
import Idealize.ShloMosaic.PureOps.Ideal.Laws
import Idealize.ShloMosaic.Lib.ValueIdx

noncomputable section

open scoped BigOperators

namespace Cert.Lib.TransposedDot

open Idealize.ShloMosaic Idealize.ShloMosaic.ValueIdx

variable {M K N : Nat} (d : DotDims (⟨2, ![M, K]⟩ : Shape) (⟨2, ![N, K]⟩ : Shape) (⟨2, ![M, N]⟩ : Shape))

/-- The dimension numbers are those of x · wᵀ: contract left axis 1 with right axis 1, keep left axis 0 and right
    axis 0, no batch axes. -/
structure RowsByRows : Prop where
  lc : d.lhsContracting = [1]
  rc : d.rhsContracting = [1]
  ln : d.lhsNonContracting = [0]
  rn : d.rhsNonContracting = [0]
  lb : d.lhsBatch = []
  rb : d.rhsBatch = []

variable {d}

theorem contr_rank (h : RowsByRows d) : d.contr.rank = 1 := by rw [d.rank_contr, h.lc]; rfl

theorem contr_size (h : RowsByRows d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : RowsByRows d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : RowsByRows d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the result's column. -/
theorem rhs_row (h : RowsByRows d) (j : (⟨2, ![M, N]⟩ : Shape).Idx) (q : d.contr.Idx) : (d.rhsIdx j q 0).val = (j 1).val := by
  have hb : (0 : Fin (⟨2, ![N, K]⟩ : Shape).rank) ∉ d.rhsBatch := by rw [h.rb]; exact List.not_mem_nil
  have hn : (0 : Fin (⟨2, ![N, K]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The right operand's column is the contraction position. -/
theorem rhs_col (h : RowsByRows d) (j : (⟨2, ![M, N]⟩ : Shape).Idx) (q : d.contr.Idx) :
    (d.rhsIdx j q 1).val = (q ⟨0, by rw [contr_rank h]; exact Nat.one_pos⟩).val :=
  d.rhsIdx_val_of_single h.rc j q

/-- The contraction's sum, re-indexed by the one contracted coordinate. -/
theorem sum_eq (h : RowsByRows d) (l : (⟨2, ![M, K]⟩ : Shape).Idx → EReal) (r : (⟨2, ![N, K]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 (j 1) k) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 (j 1) k := funext fun a => Fin.ext (by
    match a with
    | ⟨0, _⟩ => exact rhs_row h _ _
    | ⟨1, _⟩ => exact (rhs_col h _ _).trans hk)
  exact congrArg₂ (· * ·) (congrArg l el) (congrArg r er)

/-- The vector unit's product into the zero accumulator, at an index. -/
theorem matmul_zero_apply (h : RowsByRows d) {φ₁ φ₂ : FTy} (prec : Option ContractPrecision)
    (l : FVec Ideal (⟨2, ![M, K]⟩ : Shape) φ₁) (r : FVec Ideal (⟨2, ![N, K]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 (j 1) k) :=
  (Ideal.matmul_constant_zero_apply d prec l r j).trans (sum_eq h l r j)

end Cert.Lib.TransposedDot

end
-- ==== Proof.Spec.lean ====
/-
  The mathematics of a gated feed-forward layer, with no program in sight.

  Rows t of an activation matrix X [8192, 4096]; two projection matrices Wg, Wu [11008, 4096] read row by row; an
  output matrix Wd [4096, 11008]. For a row t and a hidden unit f the two projections are the inner products
  pre Wg t f = Σₑ X[t,e]·Wg[f,e] and pre Wu t f; the hidden value is (g · logistic g) · u; and the layer's result at
  (t, d) is Σ_f hidden t f · Wd[d, f].

  The hidden axis of 11008 = 43 · 256 units may be walked in 43 consecutive blocks of 256, adding each block's partial
  inner product to a running total. The running total after j blocks is the partial sum over the first 256·j units;
  one more block extends it by 256 units; 43 blocks give the whole sum. Only associativity and commutativity of
  addition on the extended reals are used, so no finiteness of the entries is needed.
-/
import Idealize.ShloMosaic.PureOps.Ideal.Laws
import Idealize.ShloMosaic.Lib.ValueIdx

noncomputable section

open scoped BigOperators

namespace Cert.Spec

open Idealize.ShloMosaic Idealize.ShloMosaic.ValueIdx

abbrev SX : Shape := ⟨2, ![8192, 4096]⟩
abbrev SW : Shape := ⟨2, ![11008, 4096]⟩
abbrev SD : Shape := ⟨2, ![4096, 11008]⟩
abbrev Sx : Shape := ⟨2, ![256, 4096]⟩
abbrev Sd : Shape := ⟨2, ![4096, 256]⟩

section whole

variable (X : SX.Idx → EReal) (Wg Wu : SW.Idx → EReal) (Wd : SD.Idx → EReal)

/-- The inner product of row t of X with row f of a projection matrix. -/
def pre (W : SW.Idx → EReal) (t : Fin 8192) (f : Fin 11008) : EReal := ∑ e : Fin 4096, X (ix2 t e) * W (ix2 f e)

/-- The gated hidden value: (g · logistic g) · u. -/
def hidden (t : Fin 8192) (f : Fin 11008) : EReal :=
  (pre X Wg t f * Ideal.logistic (pre X Wg t f)) * pre X Wu t f

/-- The contribution of hidden unit f to the result at (t, d); zero past the last unit. -/
def term (t : Fin 8192) (d : Fin 4096) (f : ℕ) : EReal :=
  if h : f < 11008 then hidden X Wg Wu t ⟨f, h⟩ * Wd (ix2 d ⟨f, h⟩) else 0

/-- The partial sum over the first n hidden units. -/
def psum (t : Fin 8192) (d : Fin 4096) (n : ℕ) : EReal := ∑ f ∈ Finset.range n, term X Wg Wu Wd t d f

/-- The layer's result at row t, column d of the [8192, 4096] matrix. -/
def out (t : Fin 8192) (d : Fin 4096) : EReal := ∑ f : Fin 11008, hidden X Wg Wu t f * Wd (ix2 d f)

/-- The layer's result as an array over the [8192, 4096] index set. -/
def outArr : SX.Idx → EReal := fun y => out X Wg Wu Wd (y 0) (y 1)

theorem outArr_apply (t : Fin 8192) (d : Fin 4096) : outArr X Wg Wu Wd (ix2 t d) = out X Wg Wu Wd t d := rfl

theorem term_of_lt (t : Fin 8192) (d : Fin 4096) (f : ℕ) (h : f < 11008) :
    term X Wg Wu Wd t d f = hidden X Wg Wu t ⟨f, h⟩ * Wd (ix2 d ⟨f, h⟩) := dif_pos h

theorem psum_zero (t : Fin 8192) (d : Fin 4096) : psum X Wg Wu Wd t d 0 = 0 := Finset.sum_range_zero _

/-- One more block of 256 units. -/
theorem psum_block (t : Fin 8192) (d : Fin 4096) (n : ℕ) :
    psum X Wg Wu Wd t d (n + 256) = psum X Wg Wu Wd t d n + ∑ k : Fin 256, term X Wg Wu Wd t d (n + k.val) := by
  unfold psum
  rw [Finset.sum_range_add]
  exact congrArg _ (Finset.sum_range fun k => term X Wg Wu Wd t d (n + k))

/-- All 11008 units: the whole sum. -/
theorem psum_full (t : Fin 8192) (d : Fin 4096) : psum X Wg Wu Wd t d 11008 = out X Wg Wu Wd t d := by
  unfold psum out
  rw [Finset.sum_range]
  exact Finset.sum_congr rfl fun f _ => term_of_lt X Wg Wu Wd t d f.val f.isLt

end whole

/-! ## One block of the walk -/

/-- Row r of row block i. -/
def rowOf (i : Fin 32) (r : Fin 256) : Fin 8192 := ⟨256 * i.val + r.val, by have := i.isLt; have := r.isLt; omega⟩

/-- Hidden unit k of hidden block j. -/
def unitOf (j : Fin 43) (k : Fin 256) : Fin 11008 := ⟨256 * j.val + k.val, by have := j.isLt; have := k.isLt; omega⟩

/-- What one step of the walk adds at (r, d): the inner product, over the block's 256 hidden units, of the gated
    hidden values computed from the blocks with the block of the output matrix. -/
def blockDot (x wg wu : Sx.Idx → EReal) (wd : Sd.Idx → EReal) (r : Fin 256) (d : Fin 4096) : EReal :=
  ∑ k : Fin 256,
    ((∑ e : Fin 4096, x (ix2 r e) * wg (ix2 k e)) * Ideal.logistic (∑ e : Fin 4096, x (ix2 r e) * wg (ix2 k e))
      * (∑ e : Fin 4096, x (ix2 r e) * wu (ix2 k e))) * wd (ix2 d k)

/-- When the four blocks are the blocks (i, ·), (j, ·), (j, ·), (·, j) of the four matrices, the step adds exactly the
    contributions of the hidden units 256·j … 256·j + 255. -/
theorem blockDot_eq (X : SX.Idx → EReal) (Wg Wu : SW.Idx → EReal) (Wd : SD.Idx → EReal) (i : Fin 32) (j : Fin 43)
    (x wg wu : Sx.Idx → EReal) (wd : Sd.Idx → EReal)
    (hx : ∀ r e, x (ix2 r e) = X (ix2 (rowOf i r) e)) (hg : ∀ k e, wg (ix2 k e) = Wg (ix2 (unitOf j k) e))
    (hu : ∀ k e, wu (ix2 k e) = Wu (ix2 (unitOf j k) e)) (hd : ∀ d k, wd (ix2 d k) = Wd (ix2 d (unitOf j k)))
    (r : Fin 256) (d : Fin 4096) :
    blockDot x wg wu wd r d = ∑ k : Fin 256, term X Wg Wu Wd (rowOf i r) d (256 * j.val + k.val) := by
  unfold blockDot
  refine Finset.sum_congr rfl fun k _ => ?_
  have hk : 256 * j.val + k.val < 11008 := (unitOf j k).isLt
  rw [term_of_lt X Wg Wu Wd _ _ _ hk]
  have e1 : (∑ e : Fin 4096, x (ix2 r e) * wg (ix2 k e)) = pre X Wg (rowOf i r) (unitOf j k) :=
    Finset.sum_congr rfl fun e _ => by rw [hx, hg]
  have e2 : (∑ e : Fin 4096, x (ix2 r e) * wu (ix2 k e)) = pre X Wu (rowOf i r) (unitOf j k) :=
    Finset.sum_congr rfl fun e _ => by rw [hx, hu]
  rw [e1, e2, hd]
  rfl

/-- The walk's invariant carried over one step: a running total holding the first 256·j units' partial sum, plus the
    step, holds the first 256·(j+1) units' partial sum. -/
theorem step_eq (X : SX.Idx → EReal) (Wg Wu : SW.Idx → EReal) (Wd : SD.Idx → EReal) (i : Fin 32) (j : Fin 43)
    (x wg wu : Sx.Idx → EReal) (wd : Sd.Idx → EReal)
    (hx : ∀ r e, x (ix2 r e) = X (ix2 (rowOf i r) e)) (hg : ∀ k e, wg (ix2 k e) = Wg (ix2 (unitOf j k) e))
    (hu : ∀ k e, wu (ix2 k e) = Wu (ix2 (unitOf j k) e)) (hd : ∀ d k, wd (ix2 d k) = Wd (ix2 d (unitOf j k)))
    (r : Fin 256) (d : Fin 4096) :
    psum X Wg Wu Wd (rowOf i r) d (256 * j.val) + blockDot x wg wu wd r d
      = psum X Wg Wu Wd (rowOf i r) d (256 * j.val + 256) := by
  rw [psum_block, blockDot_eq X Wg Wu Wd i j x wg wu wd hx hg hu hd r d]

end Cert.Spec

end
-- ==== Proof.Payload.lean ====
/-
  The kernel body's two payloads, read at an index over the extended reals.

  The clearing payload is the zero block. The step payload is, at row r and column d of the [256, 4096] block,

      total[r, d] + Σ_{k < 256} ((g · logistic g) · u) · wd[d, k],   g = Σₑ x[r, e] · wg[k, e],  u = Σₑ x[r, e] · wu[k, e]:

  three matrix products into a zero accumulator, each contracting the last axis of both operands, are finite sums; a
  change of float format is the identity on the extended reals; the rest is pointwise.
-/
import proofs.«161146_j3659312136255_1_alg».proof.Proof.Gen.KernelIdeal.Skeleton
import proofs.«161146_j3659312136255_1_alg».proof.Proof.LibTransposedDot
import proofs.«161146_j3659312136255_1_alg».proof.Proof.Spec
import Idealize.ShloMosaic.Lib.Pipeline.Value

noncomputable section

open scoped BigOperators

namespace Cert.KernelIdeal.Payload

open Idealize.ShloMosaic Idealize.ShloMosaic.ValueIdx
open Cert.KernelIdeal Cert.KernelIdeal.Gen Cert.Lib.TransposedDot

theorem rows_proj : RowsByRows dot_S256x4096_S256x4096_S256x256_1_1_0_0_n_n := ⟨rfl, rfl, rfl, rfl, rfl, rfl⟩
theorem rows_down : RowsByRows dot_S256x256_S4096x256_S256x4096_1_1_0_0_n_n := ⟨rfl, rfl, rfl, rfl, rfl, rfl⟩

/-- The clearing payload is zero everywhere. -/
theorem clear_apply (y : S256x4096.Idx) : k0_pay1 (F := Ideal) y = 0 := by
  unfold k0_pay1
  simp only [shapeCast_self]
  exact Ideal.ofBits_zero_f32

/-- The step payload at (r, d). -/
theorem step_apply (v3 v5 v7 : Vec Ideal S256x4096 .bf16) (v9 : Vec Ideal S4096x256 .bf16) (v18 : Vec Ideal S256x4096 .f32)
    (r : Fin 256) (d : Fin 4096) :
    k0_pay2 (F := Ideal) v3 v5 v7 v9 v18 (ix2 r d) = v18 (ix2 r d) + Cert.Spec.blockDot v3 v5 v7 v9 r d := by
  unfold k0_pay2
  simp only [shapeCast_self]
  refine congrArg (v18 (ix2 r d) + ·) ?_
  refine (matmul_zero_apply (φ₁ := .bf16) (φ₂ := .bf16) rows_down none _ v9 (ix2 r d)).trans ?_
  unfold Cert.Spec.blockDot
  refine Finset.sum_congr rfl fun k _ => ?_
  refine congrArg (· * v9 (ix2 d k)) ?_
  show (matmul (F := Ideal) dot_S256x4096_S256x4096_S256x256_1_1_0_0_n_n none v3 v5 (constant (F := Ideal) S256x256 .f32 0x00000000#32) (ix2 r k)
      * Ideal.logistic (matmul (F := Ideal) dot_S256x4096_S256x4096_S256x256_1_1_0_0_n_n none v3 v5 (constant (F := Ideal) S256x256 .f32 0x00000000#32) (ix2 r k)))
      * matmul (F := Ideal) dot_S256x4096_S256x4096_S256x256_1_1_0_0_n_n none v3 v7 (constant (F := Ideal) S256x256 .f32 0x00000000#32) (ix2 r k) = _
  rw [show matmul (F := Ideal) dot_S256x4096_S256x4096_S256x256_1_1_0_0_n_n none v3 v5 (constant (F := Ideal) S256x256 .f32 0x00000000#32) (ix2 r k)
        = ∑ e : Fin 4096, v3 (ix2 r e) * v5 (ix2 k e) from matmul_zero_apply (φ₁ := .bf16) (φ₂ := .bf16) rows_proj none v3 v5 (ix2 r k),
      show matmul (F := Ideal) dot_S256x4096_S256x4096_S256x256_1_1_0_0_n_n none v3 v7 (constant (F := Ideal) S256x256 .f32 0x00000000#32) (ix2 r k)
        = ∑ e : Fin 4096, v3 (ix2 r e) * v7 (ix2 k e) from matmul_zero_apply (φ₁ := .bf16) (φ₂ := .bf16) rows_proj none v3 v7 (ix2 r k)]

end Cert.KernelIdeal.Payload

end
-- ==== Proof.Blocks.lean ====
/-
  The four input blocks a grid point sees, as entries of the arrays the region finds; and those arrays as host values.

  Grid point t of the 32 × 43 grid is row block t / 43 and hidden block t mod 43. The activation block holds rows
  256·(t/43) … of the activation matrix; the two projection blocks hold rows 256·(t mod 43) … of the projection
  matrices; the output-matrix block holds columns 256·(t mod 43) … of the output matrix. The arrays themselves are the
  arguments after the host's flattening of the batch axes and its changes of float format.
-/
import proofs.«161146_j3659312136255_1_alg».proof.Proof.Gen.KernelIdeal.Frame
import proofs.«161146_j3659312136255_1_alg».proof.Proof.Spec
import Idealize.ShloMosaic.Lib.StableHlo.Run
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx Idealize.ShloMosaic.StableHlo
open Cert.KernelIdeal Cert.KernelIdeal.Gen

variable {F : FTy → Type} [FloatOps F]
variable (m : (ℓ : Loc nD τ sig) → Buf (Elt F) ℓ)

/-- The row block of a grid point. -/
def rowBlk (t : Fin cfg0.N) : Fin 32 := ⟨t.val / 43, by have := t.isLt; have h : cfg0.N = 1376 := N_0; omega⟩
/-- The hidden block of a grid point. -/
def hidBlk (t : Fin cfg0.N) : Fin 43 := ⟨t.val % 43, Nat.mod_lt _ (by decide)⟩

theorem idx_x : ∀ t : Fin cfg0.N, win0_0.index t (0 : Fin 2) = t.val / 43 ∧ win0_0.index t (1 : Fin 2) = 0 :=
  (by decide +kernel : ∀ t : Fin grid0.N, win0_0.index t (0 : Fin 2) = t.val / 43 ∧ win0_0.index t (1 : Fin 2) = 0)
theorem idx_g : ∀ t : Fin cfg0.N, win0_1.index t (0 : Fin 2) = t.val % 43 ∧ win0_1.index t (1 : Fin 2) = 0 :=
  (by decide +kernel : ∀ t : Fin grid0.N, win0_1.index t (0 : Fin 2) = t.val % 43 ∧ win0_1.index t (1 : Fin 2) = 0)
theorem idx_u : ∀ t : Fin cfg0.N, win0_2.index t (0 : Fin 2) = t.val % 43 ∧ win0_2.index t (1 : Fin 2) = 0 :=
  (by decide +kernel : ∀ t : Fin grid0.N, win0_2.index t (0 : Fin 2) = t.val % 43 ∧ win0_2.index t (1 : Fin 2) = 0)
theorem idx_d : ∀ t : Fin cfg0.N, win0_3.index t (0 : Fin 2) = 0 ∧ win0_3.index t (1 : Fin 2) = t.val % 43 :=
  (by decide +kernel : ∀ t : Fin grid0.N, win0_3.index t (0 : Fin 2) = 0 ∧ win0_3.index t (1 : Fin 2) = t.val % 43)
theorem idx_o : ∀ t : Fin cfg0.N, win0_4.index t (0 : Fin 2) = t.val / 43 ∧ win0_4.index t (1 : Fin 2) = 0 :=
  (by decide +kernel : ∀ t : Fin grid0.N, win0_4.index t (0 : Fin 2) = t.val / 43 ∧ win0_4.index t (1 : Fin 2) = 0)

/-- The arrays the region finds, at their literal types. -/
abbrev xarr (c : Dev nD) : Vec F S8192x4096 .bf16 := V m c main_v1
abbrev garr (c : Dev nD) : Vec F S11008x4096 .bf16 := V m c main_v2
abbrev uarr (c : Dev nD) : Vec F S11008x4096 .bf16 := V m c main_v3
abbrev darr (c : Dev nD) : Vec F S4096x11008 .bf16 := V m c main_v4

/-- The blocks a point sees, at their literal types. -/
abbrev xblk (c : Dev nD) (t : Fin cfg0.N) : Vec F S256x4096 .bf16 := iblk m c 0 t
abbrev gblk (c : Dev nD) (t : Fin cfg0.N) : Vec F S256x4096 .bf16 := iblk m c 1 t
abbrev ublk (c : Dev nD) (t : Fin cfg0.N) : Vec F S256x4096 .bf16 := iblk m c 2 t
abbrev dblk (c : Dev nD) (t : Fin cfg0.N) : Vec F S4096x256 .bf16 := iblk m c 3 t

theorem xblk_apply (c : Dev nD) (t : Fin cfg0.N) (r : Fin 256) (e : Fin 4096) :
    xblk m c t (ix2 r e) = xarr m c (ix2 (Cert.Spec.rowOf (rowBlk t) r) e) := by
  unfold xblk xarr iblk
  rw [View.read_apply]
  show V m c main_v1 _ = V m c main_v1 _
  congr 1
  funext a
  apply Fin.ext
  match a with
  | ⟨0, _⟩ => show win0_0.index t 0 * 256 + 1 * r.val = 256 * (t.val / 43) + r.val; rw [(idx_x t).1]; omega
  | ⟨1, _⟩ => show win0_0.index t 1 * 4096 + 1 * e.val = e.val; rw [(idx_x t).2]; omega

theorem gblk_apply (c : Dev nD) (t : Fin cfg0.N) (k : Fin 256) (e : Fin 4096) :
    gblk m c t (ix2 k e) = garr m c (ix2 (Cert.Spec.unitOf (hidBlk t) k) e) := by
  unfold gblk garr iblk
  rw [View.read_apply]
  show V m c main_v2 _ = V m c main_v2 _
  congr 1
  funext a
  apply Fin.ext
  match a with
  | ⟨0, _⟩ => show win0_1.index t 0 * 256 + 1 * k.val = 256 * (t.val % 43) + k.val; rw [(idx_g t).1]; omega
  | ⟨1, _⟩ => show win0_1.index t 1 * 4096 + 1 * e.val = e.val; rw [(idx_g t).2]; omega

theorem ublk_apply (c : Dev nD) (t : Fin cfg0.N) (k : Fin 256) (e : Fin 4096) :
    ublk m c t (ix2 k e) = uarr m c (ix2 (Cert.Spec.unitOf (hidBlk t) k) e) := by
  unfold ublk uarr iblk
  rw [View.read_apply]
  show V m c main_v3 _ = V m c main_v3 _
  congr 1
  funext a
  apply Fin.ext
  match a with
  | ⟨0, _⟩ => show win0_2.index t 0 * 256 + 1 * k.val = 256 * (t.val % 43) + k.val; rw [(idx_u t).1]; omega
  | ⟨1, _⟩ => show win0_2.index t 1 * 4096 + 1 * e.val = e.val; rw [(idx_u t).2]; omega

theorem dblk_apply (c : Dev nD) (t : Fin cfg0.N) (d : Fin 4096) (k : Fin 256) :
    dblk m c t (ix2 d k) = darr m c (ix2 d (Cert.Spec.unitOf (hidBlk t) k)) := by
  unfold dblk darr iblk
  rw [View.read_apply]
  show V m c main_v4 _ = V m c main_v4 _
  congr 1
  funext a
  apply Fin.ext
  match a with
  | ⟨0, _⟩ => show win0_3.index t 0 * 4096 + 1 * d.val = d.val; rw [(idx_d t).1]; omega
  | ⟨1, _⟩ => show win0_3.index t 1 * 256 + 1 * k.val = 256 * (t.val % 43) + k.val; rw [(idx_d t).2]; omega

theorem garr_eq (c : Dev nD) : garr m c = truncf .bf16 (m ((c : Thread nD τ).loc main_arg1)) bitsLt_bf16_f32 := by
  show StableHlo.after hostOps0 (fun b => m (c, b)) (Proc.devRef .tc main_v2) = _
  after_results

theorem uarr_eq (c : Dev nD) : uarr m c = truncf .bf16 (m ((c : Thread nD τ).loc main_arg2)) bitsLt_bf16_f32 := by
  show StableHlo.after hostOps0 (fun b => m (c, b)) (Proc.devRef .tc main_v3) = _
  after_results

theorem darr_eq (c : Dev nD) : darr m c = truncf .bf16 (m ((c : Thread nD τ).loc main_arg3)) bitsLt_bf16_f32 := by
  show StableHlo.after hostOps0 (fun b => m (c, b)) (Proc.devRef .tc main_v4) = _
  after_results

theorem xarr_eq (c : Dev nD) :
    xarr m c = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v1) = _
  after_results
  rfl

end Cert.KernelIdeal.Blocks

end
-- ==== Proof.Walk.lean ====
/-
  The running total across the grid: after grid point n (row block n / 43, hidden block n mod 43) the running-total
  buffer holds, at (r, d), the partial sum over the first 256·(n mod 43 + 1) hidden units of row 256·(n / 43) + r of the
  layer's result. At the first hidden block of a row block the total restarts from zero; at every later point it
  extends what the point before left, which belongs to the same row block. At the last hidden block the partial sum is
  the whole sum, and that is what the output block receives.
-/
import proofs.«161146_j3659312136255_1_alg».proof.Proof.Pieces
import proofs.«161146_j3659312136255_1_alg».proof.Proof.Payload
import proofs.«161146_j3659312136255_1_alg».proof.Proof.Blocks

set_option maxRecDepth 16384

noncomputable section

open scoped BigOperators

namespace Cert.KernelIdeal.Walk

open Idealize.ShloMosaic Idealize.ShloMosaic.TcCoe Idealize.SL.Sem Idealize.ShloMosaic.ValueIdx
open Cert.KernelIdeal Cert.KernelIdeal.Gen Cert.KernelIdeal.Blocks

variable (m : (ℓ : Loc nD τ sig) → Buf (Elt Ideal) ℓ)

/-- The partial sum of the layer's result over the first n hidden units, from the arrays the region finds. -/
abbrev part (c : Dev nD) (t : Fin 8192) (d : Fin 4096) (n : ℕ) : EReal :=
  Cert.Spec.psum (xarr m c) (garr m c) (uarr m c) (darr m c) t d n

/-- One visit: a total holding the partial sum up to this point's hidden block is extended by the block. -/
theorem visit (c : Dev nD) (t : Fin cfg0.N) (prev : Vec Ideal S256x4096 .f32) (r : Fin 256) (d : Fin 4096)
    (hprev : prev (ix2 r d) = part m c (Cert.Spec.rowOf (rowBlk t) r) d (256 * (t.val % 43))) :
    k0_pay2 (F := Ideal) (xblk m c t) (gblk m c t) (ublk m c t) (dblk m c t) prev (ix2 r d)
      = part m c (Cert.Spec.rowOf (rowBlk t) r) d (256 * (t.val % 43) + 256) := by
  rw [Cert.KernelIdeal.Payload.step_apply, hprev]
  exact Cert.Spec.step_eq (xarr m c) (garr m c) (uarr m c) (darr m c) (rowBlk t) (hidBlk t) (xblk m c t) (gblk m c t) (ublk m c t)
    (dblk m c t) (xblk_apply m c t) (gblk_apply m c t) (ublk_apply m c t) (dblk_apply m c t) r d

/-- The running total after every point. -/
theorem total_eq (c : Dev nD) : ∀ (n : ℕ) (h : n < cfg0.N) (r : Fin 256) (d : Fin 4096),
    (outsAt0 m c n h).2 (ix2 r d) = part m c (Cert.Spec.rowOf (rowBlk ⟨n, h⟩) r) d (256 * (n % 43) + 256) := by
  intro n
  induction n using Nat.strong_induction_on with
  | _ n ih =>
    intro h r d
    have hN : cfg0.N = 1376 := N_0
    by_cases h0 : n % 43 = 0
    · have h1 : ¬n % 43 = 42 := by omega
      rw [show outsAt0 m c n h = _ from outsAt0_A m c ⟨n, h⟩ h0 h1]
      dsimp only
      refine (congrFun (Cert.KernelIdeal.Pieces.total_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (fun hh => h1 ((hcond0_1 ⟨n, h⟩).mp hh)) (xblk m c ⟨n, h⟩) (gblk m c ⟨n, h⟩) (ublk m c ⟨n, h⟩) (dblk m c ⟨n, h⟩)) (ix2 r d)).trans ?_
      refine visit m c ⟨n, h⟩ _ r d ?_
      rw [Cert.KernelIdeal.Payload.clear_apply]
      show (0 : EReal) = part m c _ d (256 * (n % 43))
      rw [h0]
      exact (Cert.Spec.psum_zero _ _ _ _ _ _).symm
    · have hpos : n - 1 < n := by omega
      have hprev := ih (n - 1) hpos (Nat.lt_of_le_of_lt (Nat.sub_le _ _) h) r d
      have e1 : rowBlk ⟨n - 1, Nat.lt_of_le_of_lt (Nat.sub_le _ _) h⟩ = rowBlk ⟨n, h⟩ := Fin.ext (by show (n - 1) / 43 = n / 43; omega)
      have e2 : 256 * ((n - 1) % 43) + 256 = 256 * (n % 43) := by omega
      rw [e1, e2] at hprev
      by_cases h1 : n % 43 = 42
      · rw [show outsAt0 m c n h = _ from outsAt0_C m c ⟨n, h⟩ h0 h1]
        dsimp only
        refine (congrFun (Cert.KernelIdeal.Pieces.total_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => h0 ((hcond0_0 ⟨n, h⟩).mp hh)) ((hcond0_1 ⟨n, h⟩).mpr h1) (xblk m c ⟨n, h⟩) (gblk m c ⟨n, h⟩) (ublk m c ⟨n, h⟩) (dblk m c ⟨n, h⟩) (outsAt0 m c (n - 1) (Nat.lt_of_le_of_lt (Nat.sub_le _ _) h)).2) (ix2 r d)).trans ?_
        exact visit m c ⟨n, h⟩ _ r d hprev
      · rw [show outsAt0 m c n h = _ from outsAt0_B m c ⟨n, h⟩ h0 h1]
        dsimp only
        refine (congrFun (Cert.KernelIdeal.Pieces.total_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => h0 ((hcond0_0 ⟨n, h⟩).mp hh)) (fun hh => h1 ((hcond0_1 ⟨n, h⟩).mp hh)) (xblk m c ⟨n, h⟩) (gblk m c ⟨n, h⟩) (ublk m c ⟨n, h⟩) (dblk m c ⟨n, h⟩) (outsAt0 m c (n - 1) (Nat.lt_of_le_of_lt (Nat.sub_le _ _) h)).2) (ix2 r d)).trans ?_
        exact visit m c ⟨n, h⟩ _ r d hprev

/-- At the last hidden block of a row block the output block receives the whole sum. -/
theorem block_eq (c : Dev nD) (n : ℕ) (h : n < cfg0.N) (h1 : n % 43 = 42) (r : Fin 256) (d : Fin 4096) :
    (outsAt0 m c n h).1 (ix2 r d)
      = Cert.Spec.out (xarr m c) (garr m c) (uarr m c) (darr m c) (Cert.Spec.rowOf (rowBlk ⟨n, h⟩) r) d := by
  have hN : cfg0.N = 1376 := N_0
  have h0 : ¬n % 43 = 0 := by omega
  have hprev := total_eq m c (n - 1) (Nat.lt_of_le_of_lt (Nat.sub_le _ _) h) r d
  have e1 : rowBlk ⟨n - 1, Nat.lt_of_le_of_lt (Nat.sub_le _ _) h⟩ = rowBlk ⟨n, h⟩ := Fin.ext (by show (n - 1) / 43 = n / 43; omega)
  have e2 : 256 * ((n - 1) % 43) + 256 = 256 * (n % 43) := by omega
  rw [e1, e2] at hprev
  rw [show outsAt0 m c n h = _ from outsAt0_C m c ⟨n, h⟩ h0 h1]
  dsimp only
  refine (congrFun (Cert.KernelIdeal.Pieces.block_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (fun hh => h0 ((hcond0_0 ⟨n, h⟩).mp hh)) ((hcond0_1 ⟨n, h⟩).mpr h1) (xblk m c ⟨n, h⟩) (gblk m c ⟨n, h⟩) (ublk m c ⟨n, h⟩) (dblk m c ⟨n, h⟩) (outsAt0 m c (n - 1) (Nat.lt_of_le_of_lt (Nat.sub_le _ _) h)).2) (ix2 r d)).trans ?_
  refine (visit m c ⟨n, h⟩ _ r d hprev).trans ?_
  show part m c _ d (256 * (n % 43) + 256) = _
  rw [h1]
  exact Cert.Spec.psum_full _ _ _ _ _ _

end Cert.KernelIdeal.Walk

end
-- ==== Proof.Result.lean ====
/-
  The kernel's result array, and its run.

  The output window's block is written back only at the last hidden block of each row block, and then it holds the
  whole sums for the 256 rows of that row block. The 32 row blocks tile the [8192, 4096] array, so after the run the
  array holds the layer's result everywhere; the host then restores the batch axes.
-/
import proofs.«161146_j3659312136255_1_alg».proof.Proof.Walk
import Idealize.ShloMosaic.Lib.Pipeline.Value
import Idealize.ShloMosaic.Lib.StableHlo.Run

set_option maxRecDepth 16384

noncomputable section

namespace Cert.KernelIdeal.Result

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Blocks Cert.KernelIdeal.Walk

variable (m : (ℓ : Loc nD τ sig) → Buf (Elt Ideal) ℓ) (ρ : Dev nD → PrngReg)

/-- The layer's result over the flattened rows, from the arrays the region finds. -/
abbrev flat (c : Dev nD) : Buf (Elt Ideal) ((c : Thread nD τ).loc main_v5) :=
  Cert.Spec.outArr (xarr m c) (garr m c) (uarr m c) (darr m c)

/-- What a writing point writes back is its block of the layer's result. -/
theorem flushed_eq (c : Dev nD) (t : Fin cfg0.N) (hf : (cfg0.win 4).flush t = true) :
    (dats m 0 c).flushed 4 t = ((cfg0.win 4).blk t).view.read (Elt Ideal) (flat m c) := by
  have h1 : t.val % 43 = 42 := (flush0_4 t).mp hf
  show (cfg0.win 4).cut (grid0.coords t) ((dats m 0 c).after 4 t) = _
  rw [after0_4]
  funext y
  obtain ⟨r, d, rfl⟩ : ∃ (r : Fin 256) (d : Fin 4096), y = ix2 r d := ⟨y 0, y 1, eq_ix2 y⟩
  rw [View.read_apply]
  refine (block_eq m c t.val t.isLt h1 r d).trans ?_
  show Cert.Spec.outArr (xarr m c) (garr m c) (uarr m c) (darr m c) (ix2 (Cert.Spec.rowOf (rowBlk t) r) d) = flat m c _
  unfold flat
  congr 1
  funext a
  apply Fin.ext
  match a with
  | ⟨0, _⟩ => show 256 * (t.val / 43) + r.val = win0_4.index t 0 * 256 + 1 * r.val; rw [(idx_o t).1]; omega
  | ⟨1, _⟩ => show d.val = win0_4.index t 1 * 4096 + 1 * d.val; rw [(idx_o t).2]; omega

/-- An index is in a point's block iff each coordinate is in the block's range. -/
theorem mem_blk (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v5).slice (win0_4.rect t)).set ↔ _
  rw [View.set_slice_whole, Rect.mem_set_unit]
  exact Iff.rfl

/-- Every index of the array lies in the block of the writing point of its row block. -/
theorem cover (i : S8192x4096.Idx) : ∃ t : Fin cfg0.N, (cfg0.win 4).flush t = true ∧ i ∈ ((cfg0.win 4).blk t).view.set := by
  have hN : cfg0.N = 1376 := N_0
  have hi0 : (i 0).val < 8192 := (i 0).isLt
  have hi1 : (i 1).val < 4096 := (i 1).isLt
  refine ⟨⟨43 * ((i 0).val / 256) + 42, by omega⟩, (flush0_4 _).mpr (by show (43 * ((i 0).val / 256) + 42) % 43 = 42; omega), ?_⟩
  rw [mem_blk]
  intro a
  match a with
  | ⟨0, _⟩ =>
    show win0_4.index _ 0 * 256 ≤ (i 0).val ∧ (i 0).val < win0_4.index _ 0 * 256 + 256
    rw [(idx_o _).1]
    show (43 * ((i 0).val / 256) + 42) / 43 * 256 ≤ (i 0).val ∧ (i 0).val < (43 * ((i 0).val / 256) + 42) / 43 * 256 + 256
    omega
  | ⟨1, _⟩ =>
    show win0_4.index _ 1 * 4096 ≤ (i 1).val ∧ (i 1).val < win0_4.index _ 1 * 4096 + 4096
    rw [(idx_o _).2]
    omega

/-- The result array after the region. -/
theorem final (c : Dev nD) : (dats m 0 c).arrAt 4 cfg0.N = flat m c :=
  (dats m 0 c).arrAt_eq_of_cover 4 (flat m c) (flushed_eq m c) cover

/-- After the host's final reshape the result buffer holds the layer's result with the batch axes restored. -/
theorem tail_eq (c : Dev nD) :
    Pipeline.afterTail₀ cfgs (dats m) 0 (V0 m) [hostOps1] c main_v6
      = shapeCast S4x2048x4096 (flat m c) shapeCasts_S8192x4096_S4x2048x4096 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v5) = flat m c :=
    (Pipeline.withArrays_arr spec0 launch0.win.arr_inj c _ _ 4).trans (final m c)
  rw [e]
  rfl

/-- The layer's result in terms of the arguments: the activation flattened over its batch axes, the three weight
    matrices as given (a change of float format is the identity on the extended reals). -/
theorem flat_eq (c : Dev nD) :
    flat m c = Cert.Spec.outArr (shapeCast S8192x4096 (m ((c : Thread nD τ).loc main_arg0)) shapeCasts_S4x2048x4096_S8192x4096)
      (m ((c : Thread nD τ).loc main_arg1)) (m ((c : Thread nD τ).loc main_arg2)) (m ((c : Thread nD τ).loc main_arg3)) := by
  show Cert.Spec.outArr (xarr m c) (garr m c) (uarr m c) (darr m c) = _
  rw [xarr_eq m c, garr_eq m c, uarr_eq m c, darr_eq m c]
  rfl

/-- The run of the idealized kernel program: it ends with the result buffer at the layer's result and the four
    arguments as they were. -/
theorem run : θ_run defs (onTc (τ := τ) (main (F := Ideal))) ⟨m, fun _ => 0, ρ⟩ fun r => ∀ c : Dev nD,
      r.2.mem ((c.tc : Thread nD τ).loc main_v6) = shapeCast S4x2048x4096 (flat m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefValue.lean ====
/-
  The reference, read at an index: it computes the gated feed-forward layer of the mathematical statement.

  The reference forms x·Wuᵀ and x·Wgᵀ by transposing the projection matrices and contracting, applies
  g ↦ g · (1 / (1 + exp(−g))) to the gate branch, multiplies by the other branch, and contracts with Wdᵀ. Entry by
  entry these are the inner products pre Wg, pre Wu, the gated hidden value (1 / (1 + exp(−g)) is the logistic function
  on the extended reals by definition) and the final sum over the 11008 hidden units.
-/
import proofs.«161146_j3659312136255_1_alg».proof.Proof.Gen.ReferenceIdeal.Read
import proofs.«161146_j3659312136255_1_alg».proof.Proof.Spec
import Idealize.ShloMosaic.Lib.IdealHost

noncomputable section

open scoped BigOperators

namespace Cert.ReferenceIdeal.RefValue

open Idealize.ShloMosaic Idealize.ShloMosaic.ValueIdx
open Cert.ReferenceIdeal Cert.ReferenceIdeal.Gen Cert.ReferenceIdeal.Read

variable (x0 : (⟨S4x2048x4096, .f32⟩ : BufTy).Contents (Elt Ideal)) (x1 x2 : (⟨S11008x4096, .f32⟩ : BufTy).Contents (Elt Ideal))
  (x3 : (⟨S4096x11008, .f32⟩ : BufTy).Contents (Elt Ideal))

/-- The gate branch's product x·Wgᵀ at (t, f) is the inner product of row t of x with row f of Wg. -/
theorem gate_apply (t : Fin 8192) (f : Fin 11008) :
    val_main_v4 (F := Ideal) x0 x1 (ix2 t f) = Cert.Spec.pre (val_main_v0 (F := Ideal) x0) x1 t f := by
  rw [val_main_v4_apply]
  unfold Cert.Spec.pre
  refine Finset.sum_congr rfl fun e _ => ?_
  rw [val_main_v3_apply]
  have e1 : lidx_main_v4 (ix2 t f) e = ix2 t e := funext fun a => Fin.ext (by
    match a with
    | ⟨0, _⟩ => rfl
    | ⟨1, _⟩ => rfl)
  have e2 : idx_main_v3 (ridx_main_v4 (ix2 t f) e) = ix2 f e := funext fun a => Fin.ext (by
    match a with
    | ⟨0, _⟩ => rfl
    | ⟨1, _⟩ => rfl)
  rw [e1, e2]

/-- The other branch's product x·Wuᵀ at (t, f). -/
theorem up_apply (t : Fin 8192) (f : Fin 11008) :
    val_main_v2 (F := Ideal) x0 x2 (ix2 t f) = Cert.Spec.pre (val_main_v0 (F := Ideal) x0) x2 t f := by
  rw [val_main_v2_apply]
  unfold Cert.Spec.pre
  refine Finset.sum_congr rfl fun e _ => ?_
  rw [val_main_v1_apply]
  have e1 : lidx_main_v2 (ix2 t f) e = ix2 t e := funext fun a => Fin.ext (by
    match a with
    | ⟨0, _⟩ => rfl
    | ⟨1, _⟩ => rfl)
  have e2 : idx_main_v1 (ridx_main_v2 (ix2 t f) e) = ix2 f e := funext fun a => Fin.ext (by
    match a with
    | ⟨0, _⟩ => rfl
    | ⟨1, _⟩ => rfl)
  rw [e1, e2]

/-- The gated hidden value at (t, f). -/
theorem hidden_apply (t : Fin 8192) (f : Fin 11008) :
    val_main_v6 (F := Ideal) x0 x1 x2 (ix2 t f) = Cert.Spec.hidden (val_main_v0 (F := Ideal) x0) x1 x2 t f := by
  rw [val_main_v6_apply, val_main_v5_apply, val_main_call0_v5_apply, val_main_call0_v4_apply, val_main_call0_cst_0_apply,
    val_main_call0_v3_apply, val_main_call0_v2_apply, val_main_call0_cst_apply, val_main_call0_v1_apply,
    val_main_call0_v0_apply, gate_apply, up_apply]
  unfold Cert.Spec.hidden Ideal.logistic
  simp only [Ideal.mulf_def, Ideal.hostDivf_def, Ideal.addf_def, Ideal.hostUnary_exp_def, Ideal.hostNegf_def, Ideal.negf_def,
    Ideal.ofBits_def, Ideal.ofBits_one_f32]

/-- The flattened result at (t, d). -/
theorem flat_apply (t : Fin 8192) (d : Fin 4096) :
    val_main_v8 (F := Ideal) x0 x1 x2 x3 (ix2 t d) = Cert.Spec.out (val_main_v0 (F := Ideal) x0) x1 x2 x3 t d := by
  rw [val_main_v8_apply]
  unfold Cert.Spec.out
  refine Finset.sum_congr rfl fun f _ => ?_
  rw [val_main_v7_apply]
  have e1 : lidx_main_v8 (ix2 t d) f = ix2 t f := funext fun a => Fin.ext (by
    match a with
    | ⟨0, _⟩ => rfl
    | ⟨1, _⟩ => rfl)
  have e2 : idx_main_v7 (ridx_main_v8 (ix2 t d) f) = ix2 d f := funext fun a => Fin.ext (by
    match a with
    | ⟨0, _⟩ => rfl
    | ⟨1, _⟩ => rfl)
  rw [e1, e2, hidden_apply]

/-- The reference's result: the layer's [8192, 4096] result array with the batch axes restored. -/
theorem result_eq :
    val_main_v9 (F := Ideal) x0 x1 x2 x3
      = shapeCast S4x2048x4096 (Cert.Spec.outArr (val_main_v0 (F := Ideal) x0) x1 x2 x3) shapeCasts_S8192x4096_S4x2048x4096 := by
  unfold val_main_v9
  congr 1
  funext y
  obtain ⟨t, d, rfl⟩ : ∃ (t : Fin 8192) (d : Fin 4096), y = ix2 t d := ⟨y 0, y 1, eq_ix2 y⟩
  exact flat_apply x0 x1 x2 x3 t d

end Cert.ReferenceIdeal.RefValue

end
-- ==== Proof.lean ====
/-
  A gated feed-forward layer, out[t, d] = Σ_f (g · logistic g · u)[t, f] · Wd[d, f] with g = x·Wgᵀ and u = x·Wuᵀ, computed by
  a kernel that walks 32 row blocks × 43 hidden blocks and keeps a running total per row block, against the plain
  formula.

  On the extended reals a change of float format is the identity, the kernel's logistic is 1 / (1 + exp(−g)) by
  definition — the very expression the reference spells out —, and a matrix product into a zero accumulator is a finite
  sum. So the only difference between the two sides is the grouping of the sum over the 11008 hidden units into 43
  consecutive blocks of 256, started from zero: associativity and commutativity of addition, which hold on the extended
  reals without any finiteness assumption. The precondition is therefore never opened.

  The modules: the mathematical statement and the regrouping law; the body's stores read back as pure values; those
  values at an index; the input blocks as entries of the argument arrays; the running total after every grid point, by
  induction along the grid; the result array and the run; the reference read at an index.
-/
import proofs.«161146_j3659312136255_1_alg».proof.Defs
import proofs.«161146_j3659312136255_1_alg».proof.Proof.Gen.Kernel
import proofs.«161146_j3659312136255_1_alg».proof.Proof.Gen.Kernel.Skeleton
import proofs.«161146_j3659312136255_1_alg».proof.Proof.Gen.Kernel.Launch
import proofs.«161146_j3659312136255_1_alg».proof.Proof.Gen.Kernel.Points
import proofs.«161146_j3659312136255_1_alg».proof.Proof.Gen.Kernel.Frame
import proofs.«161146_j3659312136255_1_alg».proof.Proof.Gen.KernelIdeal
import proofs.«161146_j3659312136255_1_alg».proof.Proof.Gen.KernelIdeal.Skeleton
import proofs.«161146_j3659312136255_1_alg».proof.Proof.Gen.KernelIdeal.Launch
import proofs.«161146_j3659312136255_1_alg».proof.Proof.Gen.KernelIdeal.Points
import proofs.«161146_j3659312136255_1_alg».proof.Proof.Gen.KernelIdeal.Frame
import proofs.«161146_j3659312136255_1_alg».proof.Proof.Gen.ReferenceIdeal
import proofs.«161146_j3659312136255_1_alg».proof.Proof.Gen.ReferenceIdeal.Run
import proofs.«161146_j3659312136255_1_alg».proof.Proof.Gen.ReferenceIdeal.Read
import proofs.«161146_j3659312136255_1_alg».proof.Proof.Gen.Pre_finite_inputs
import proofs.«161146_j3659312136255_1_alg».proof.Proof.Result
import proofs.«161146_j3659312136255_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- Both programs end with the result buffer at the layer's result — the [8192, 4096] array of whole sums, batch axes
    restored — of arguments that agree. -/
theorem algebraic : Cert.algebraic_KernelIdeal_ReferenceIdeal := by
  intro m ρ m' ρ' _ hagree
  refine ⟨fun c => shapeCast Cert.KernelIdeal.S4x2048x4096 (Cert.KernelIdeal.Result.flat m c) Cert.KernelIdeal.Gen.shapeCasts_S8192x4096_S4x2048x4096,
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2.1, (hagree c).2.2.1,
    (hagree c).2.2.2]
  show _ = shapeCast Cert.KernelIdeal.S4x2048x4096 (Cert.KernelIdeal.Result.flat m c) Cert.KernelIdeal.Gen.shapeCasts_S8192x4096_S4x2048x4096
  rw [Cert.KernelIdeal.Result.flat_eq m c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
